-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.FrameK.lean ====
/-
  The frame of the program: @main runs to its end on every weakly fair execution, nothing faults, and the fifteen
  argument arrays end as they were launched. The statements hold at every float instance.

  @main is six host operations — three concatenations (the four gates' input weights, hidden weights and biases,
  each stacked along the leading axis), two changes of float format and one reshape, none of which writes an
  argument — and then one pipelined call over 32 grid points. At point `t` the call stages rows
  `128 t … 128 t + 127` of the three activation arrays (fetched at every point), keeps the two stacked weight
  matrices and the stacked bias resident (fetched once, at the first point), runs the body, and writes the two
  result blocks back. The body loads its six inputs whole, computes, and overwrites each result buffer whole (it
  also loads each result buffer's old contents, which it never uses), so after the body each input buffer holds
  what it held and each result buffer holds the stored value as a function of the six input blocks.
-/
import proofs.«144759_j47347719471523_1_alg».proof.Proof.Gen.Kernel.Launch
import proofs.«144759_j47347719471523_1_alg».proof.Proof.Gen.Kernel.Skeleton
import proofs.«144759_j47347719471523_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- A core's buffers when the call is entered: the launch contents after the six host operations. -/
abbrev V (c : Dev nD) (b : Ref sig .tc) : Buf (Elt F) ((c : Thread nD τ).loc b) :=
  StableHlo.after hostOps0 (fun b => m (c, b)) b

/-- None of the six host operations allocates a buffer. -/
theorem hostOps0_fresh : (hostOps0 : List (HloOp τ sig (Elt F))).Forall fun op => op.fresh = ∅ := by
  simp only [List.Forall]; repeat' constructor

/-- @main is the six host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or
    not (an unfetched window's block index has not moved since the point that fetched it), for any proof data whose
    array is the entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- Read at the argument arrays, the pipeline's post is the frame claim's: a staged activation array is what its
    window's array ends as, an input array; every other argument is a buffer no window stages, left as the call
    found it; and the call found each argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A 128 × 1024 activation or result block, whole. -/
abbrev rBlk : Rect S128x1024 := Rect.unit (s := S128x1024) ![0, 0] S128x1024.size inb_S128x1024_S128x1024_0_0
/-- A stacked 4096 × 1024 weight matrix, whole. -/
abbrev rWts : Rect S4096x1024 := Rect.unit (s := S4096x1024) ![0, 0] S4096x1024.size inb_S4096x1024_S4096x1024_0_0
/-- The stacked 1 × 4096 bias, whole. -/
abbrev rBias : Rect S1x4096 := Rect.unit (s := S1x4096) ![0, 0] S1x4096.size inb_S1x4096_S1x4096_0_0

/-! ## What the body leaves in each result window's buffer -/

/-- The first result's buffer after the body (the new hidden state), from the six input blocks: one store. -/
def out6 (x0 x1 x2 : Vec F S128x1024 .f32) (x3 x4 : Vec F S4096x1024 .bf16) (x5 : Vec F S1x4096 .f32) : Vec F S128x1024 .f32 :=
  View.canon [⟨rBlk, k0_pay3 (View.ld x0 rBlk) (View.ld x1 rBlk) (View.ld x3 rWts) (View.ld x4 rWts) (View.ld x5 rBias) (View.ld x2 rBlk)⟩]

/-- The second result's buffer after the body (the new cell state), from the six input blocks: one store. -/
def out7 (x0 x1 x2 : Vec F S128x1024 .f32) (x3 x4 : Vec F S4096x1024 .bf16) (x5 : Vec F S1x4096 .f32) : Vec F S128x1024 .f32 :=
  View.canon [⟨rBlk, k0_pay2 (View.ld x0 rBlk) (View.ld x1 rBlk) (View.ld x3 rWts) (View.ld x4 rWts) (View.ld x5 rBias) (View.ld x2 rBlk)⟩]

/-- The one store covers the buffer. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging buffers, the inputs' at contents `x0 … x5` and the results' at anything, runs to a
    state holding the inputs' as they were and each result's at its stored value. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- The proof data of the pipeline on core `c`: the arrays as the call finds them; after the body at point `t`
    each input's buffer at its block and each result's at its stored value of the six input blocks; nothing of the
    kernel's own to keep between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after_7 (c : Dev nD) (t : Fin cfg0.N) : (dats m 0 c).after 7 t = out7 (iblk m c 0 t) (iblk m c 1 t) (iblk m c 2 t) (iblk m c 3 t) (iblk m c 4 t) (iblk m c 5 t) := by dsimp only [dats]

/-! Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.FrameKI.lean ====
/-
  The frame of the program: @main runs to its end on every weakly fair execution, nothing faults, and the fifteen
  argument arrays end as they were launched. The statements hold at every float instance.

  @main is six host operations — three concatenations (the four gates' input weights, hidden weights and biases,
  each stacked along the leading axis), two changes of float format and one reshape, none of which writes an
  argument — and then one pipelined call over 32 grid points. At point `t` the call stages rows
  `128 t … 128 t + 127` of the three activation arrays (fetched at every point), keeps the two stacked weight
  matrices and the stacked bias resident (fetched once, at the first point), runs the body, and writes the two
  result blocks back. The body loads its six inputs whole, computes, and overwrites each result buffer whole (it
  also loads each result buffer's old contents, which it never uses), so after the body each input buffer holds
  what it held and each result buffer holds the stored value as a function of the six input blocks.
-/
import proofs.«144759_j47347719471523_1_alg».proof.Proof.Gen.KernelIdeal.Launch
import proofs.«144759_j47347719471523_1_alg».proof.Proof.Gen.KernelIdeal.Skeleton
import proofs.«144759_j47347719471523_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- A core's buffers when the call is entered: the launch contents after the six host operations. -/
abbrev V (c : Dev nD) (b : Ref sig .tc) : Buf (Elt F) ((c : Thread nD τ).loc b) :=
  StableHlo.after hostOps0 (fun b => m (c, b)) b

/-- None of the six host operations allocates a buffer. -/
theorem hostOps0_fresh : (hostOps0 : List (HloOp τ sig (Elt F))).Forall fun op => op.fresh = ∅ := by
  simp only [List.Forall]; repeat' constructor

/-- @main is the six host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or
    not (an unfetched window's block index has not moved since the point that fetched it), for any proof data whose
    array is the entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- Read at the argument arrays, the pipeline's post is the frame claim's: a staged activation array is what its
    window's array ends as, an input array; every other argument is a buffer no window stages, left as the call
    found it; and the call found each argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A 128 × 1024 activation or result block, whole. -/
abbrev rBlk : Rect S128x1024 := Rect.unit (s := S128x1024) ![0, 0] S128x1024.size inb_S128x1024_S128x1024_0_0
/-- A stacked 4096 × 1024 weight matrix, whole. -/
abbrev rWts : Rect S4096x1024 := Rect.unit (s := S4096x1024) ![0, 0] S4096x1024.size inb_S4096x1024_S4096x1024_0_0
/-- The stacked 1 × 4096 bias, whole. -/
abbrev rBias : Rect S1x4096 := Rect.unit (s := S1x4096) ![0, 0] S1x4096.size inb_S1x4096_S1x4096_0_0

/-! ## What the body leaves in each result window's buffer -/

/-- The first result's buffer after the body (the new hidden state), from the six input blocks: one store. -/
def out6 (x0 x1 x2 : Vec F S128x1024 .f32) (x3 x4 : Vec F S4096x1024 .bf16) (x5 : Vec F S1x4096 .f32) : Vec F S128x1024 .f32 :=
  View.canon [⟨rBlk, k0_pay3 (View.ld x0 rBlk) (View.ld x1 rBlk) (View.ld x3 rWts) (View.ld x4 rWts) (View.ld x5 rBias) (View.ld x2 rBlk)⟩]

/-- The second result's buffer after the body (the new cell state), from the six input blocks: one store. -/
def out7 (x0 x1 x2 : Vec F S128x1024 .f32) (x3 x4 : Vec F S4096x1024 .bf16) (x5 : Vec F S1x4096 .f32) : Vec F S128x1024 .f32 :=
  View.canon [⟨rBlk, k0_pay2 (View.ld x0 rBlk) (View.ld x1 rBlk) (View.ld x3 rWts) (View.ld x4 rWts) (View.ld x5 rBias) (View.ld x2 rBlk)⟩]

/-- The one store covers the buffer. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging buffers, the inputs' at contents `x0 … x5` and the results' at anything, runs to a
    state holding the inputs' as they were and each result's at its stored value. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The pipeline's proof data -/

/-- The proof data of the pipeline on core `c`: the arrays as the call finds them; after the body at point `t`
    each input's buffer at its block and each result's at its stored value of the six input blocks; nothing of the
    kernel's own to keep between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after_7 (c : Dev nD) (t : Fin cfg0.N) : (dats m 0 c).after 7 t = out7 (iblk m c 0 t) (iblk m c 1 t) (iblk m c 2 t) (iblk m c 3 t) (iblk m c 4 t) (iblk m c 5 t) := by dsimp only [dats]

/-! Each input's current staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data gives and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
/-
  One step of an LSTM cell, read one batch row at a time on the extended reals.

  For a row with input features `x`, previous hidden state `h` and previous cell state `c` (1024 entries each),
  stacked weight matrices `W`, `U` (4096 rows of 1024: the input, output, forget and candidate gates' blocks in
  that order) and a stacked bias `b` (4096 entries), the pre-activation of stacked column `q` is

      gate q = (∑ₖ x k · W q k + ∑ₖ h k · U q k) + b q,

  the new cell state is  σ(gate (2048 + j)) · c j + σ(gate j) · tanh (gate (3072 + j)),  and the new hidden
  state is  σ(gate (1024 + j)) · tanh (new cell state j),  with σ the logistic function 1 / (1 + e⁻ˣ).
  Both programs compute these two functions; each side is proved equal to them separately.
-/
import Idealize.ShloMosaic.PureOps.Ideal

noncomputable section

namespace Cert.Lstm

open Idealize.ShloMosaic

/-- Column `j` of the input gate's block of the stacked pre-activation. -/
def colI (j : Fin 1024) : Fin 4096 := ⟨j.val, by have := j.isLt; omega⟩
/-- Column `j` of the output gate's block. -/
def colO (j : Fin 1024) : Fin 4096 := ⟨1024 + j.val, by have := j.isLt; omega⟩
/-- Column `j` of the forget gate's block. -/
def colF (j : Fin 1024) : Fin 4096 := ⟨2048 + j.val, by have := j.isLt; omega⟩
/-- Column `j` of the candidate's block. -/
def colC (j : Fin 1024) : Fin 4096 := ⟨3072 + j.val, by have := j.isLt; omega⟩

/-- The stacked pre-activation of one row at stacked column `q`: the two matrix products, added, then the bias. -/
def gate (x h : Fin 1024 → EReal) (W U : Fin 4096 → Fin 1024 → EReal) (b : Fin 4096 → EReal) (q : Fin 4096) : EReal :=
  ((∑ k : Fin 1024, x k * W q k) + ∑ k : Fin 1024, h k * U q k) + b q

/-- The new cell state of one row: forget gate times the old cell state plus input gate times the candidate. -/
def newC (x h c : Fin 1024 → EReal) (W U : Fin 4096 → Fin 1024 → EReal) (b : Fin 4096 → EReal) (j : Fin 1024) : EReal :=
  Ideal.logistic (gate x h W U b (colF j)) * c j
    + Ideal.logistic (gate x h W U b (colI j)) * Ideal.tanh (gate x h W U b (colC j))

/-- The new hidden state of one row: output gate times the hyperbolic tangent of the new cell state. -/
def newH (x h c : Fin 1024 → EReal) (W U : Fin 4096 → Fin 1024 → EReal) (b : Fin 4096 → EReal) (j : Fin 1024) : EReal :=
  Ideal.logistic (gate x h W U b (colO j)) * Ideal.tanh (newC x h c W U b j)

end Cert.Lstm

end
-- ==== Proof.KerSpec.lean ====
/-
  The kernel body's two stored values, read at one entry of the 128-row block, are the LSTM cell step of
  `Spec.lean` on that row: the row's input and hidden features come from the two loaded activation blocks, the
  stacked weights from the two resident 4096 × 1024 operands, the stacked bias from the 1 × 4096 operand and the
  old cell state from the third activation block.
-/
import proofs.«144759_j47347719471523_1_alg».proof.Proof.Gen.KernelIdeal.Skeleton
import proofs.«144759_j47347719471523_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerSpec

open Cert.KernelIdeal Cert.KernelIdeal.Gen Idealize.ShloMosaic Idealize.ShloMosaic.ValueIdx

/-- On the left operand's kept axis the product reads the result's row. -/
theorem dot_lhs_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl

/-- On the left operand's contracted axis it reads the contraction position. -/
theorem dot_lhs_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q

/-- On the right operand's kept axis the product reads the result's column. -/
theorem dot_rhs_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl

/-- On the right operand's contracted axis it reads the contraction position. -/
theorem dot_rhs_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- The product into the zero accumulator, at row `r` and column `q`: the sum over the 1024 shared features of the
    left operand's row `r` times the right operand's row `q`. -/
theorem matmul_read (a : FVec Ideal S128x1024 .bf16) (b : FVec Ideal S4096x1024 .bf16) (r : Fin 128) (q : Fin 4096) :
    matmul dot_S128x1024_S4096x1024_S128x4096_1_1_0_0_n_n none a b (constant (F := Ideal) S128x4096 .f32 0x00000000#32) (ix2 r q)
      = ∑ k : Fin 1024, a (ix2 r k) * b (ix2 q k) := by
  show FloatOps.matmul dot_S128x1024_S4096x1024_S128x4096_1_1_0_0_n_n none a b (constant (F := Ideal) S128x4096 .f32 0x00000000#32) (ix2 r q) = _
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 r q) ((contrEquiv1 dot_S128x1024_S4096x1024_S128x4096_1_1_0_0_n_n 1024 rfl rfl).symm k) = ix2 r k := funext fun c => Fin.ext (by
    match c with
    | ⟨0, _⟩ => exact dot_lhs_0 _ _
    | ⟨1, _⟩ => exact (dot_lhs_1 _ _).trans hk)
  have er : dot_S128x1024_S4096x1024_S128x4096_1_1_0_0_n_n.rhsIdx (ix2 r q) ((contrEquiv1 dot_S128x1024_S4096x1024_S128x4096_1_1_0_0_n_n 1024 rfl rfl).symm k) = ix2 q k := funext fun c => Fin.ext (by
    match c with
    | ⟨0, _⟩ => exact dot_rhs_0 _ _
    | ⟨1, _⟩ => exact (dot_rhs_1 _ _).trans hk)
  rw [el, er]

/-- The logistic function of a block, read at an entry. -/
theorem logistic_read {s : Shape} {φ : FTy} (x : FVec Ideal s φ) (i : s.Idx) : logistic x i = Ideal.logistic (x i) := rfl

/-- The hyperbolic tangent of a block, read at an entry. -/
theorem tanh_read {s : Shape} {φ : FTy} (x : FVec Ideal s φ) (i : s.Idx) : tanh x i = Ideal.tanh (x i) := rfl

/-- Columns 0 … 1023 of the stacked block are the input gate's. -/
theorem slice_I (x : FVec Ideal S128x4096 .f32) (r : Fin 128) (j : Fin 1024) :
    extractStridedSlice S128x1024 ![0, 0] x slices_S128x4096_o0_0_S128x1024 (ix2 r j) = x (ix2 r (Cert.Lstm.colI j)) :=
  extractStridedSlice_apply ![0, 0] x slices_S128x4096_o0_0_S128x1024 (ix2 r j) (ix2 r (Cert.Lstm.colI j)) (fun a => match a with
    | ⟨0, _⟩ => by show r.val = 0 + r.val; omega
    | ⟨1, _⟩ => by show j.val = 0 + j.val; omega)

/-- Columns 1024 … 2047 are the output gate's. -/
theorem slice_O (x : FVec Ideal S128x4096 .f32) (r : Fin 128) (j : Fin 1024) :
    extractStridedSlice S128x1024 ![0, 1024] x slices_S128x4096_o0_1024_S128x1024 (ix2 r j) = x (ix2 r (Cert.Lstm.colO j)) :=
  extractStridedSlice_apply ![0, 1024] x slices_S128x4096_o0_1024_S128x1024 (ix2 r j) (ix2 r (Cert.Lstm.colO j)) (fun a => match a with
    | ⟨0, _⟩ => by show r.val = 0 + r.val; omega
    | ⟨1, _⟩ => by show 1024 + j.val = 1024 + j.val; rfl)

/-- Columns 2048 … 3071 are the forget gate's. -/
theorem slice_F (x : FVec Ideal S128x4096 .f32) (r : Fin 128) (j : Fin 1024) :
    extractStridedSlice S128x1024 ![0, 2048] x slices_S128x4096_o0_2048_S128x1024 (ix2 r j) = x (ix2 r (Cert.Lstm.colF j)) :=
  extractStridedSlice_apply ![0, 2048] x slices_S128x4096_o0_2048_S128x1024 (ix2 r j) (ix2 r (Cert.Lstm.colF j)) (fun a => match a with
    | ⟨0, _⟩ => by show r.val = 0 + r.val; omega
    | ⟨1, _⟩ => by show 2048 + j.val = 2048 + j.val; rfl)

/-- Columns 3072 … 4095 are the candidate's. -/
theorem slice_C (x : FVec Ideal S128x4096 .f32) (r : Fin 128) (j : Fin 1024) :
    extractStridedSlice S128x1024 ![0, 3072] x slices_S128x4096_o0_3072_S128x1024 (ix2 r j) = x (ix2 r (Cert.Lstm.colC j)) :=
  extractStridedSlice_apply ![0, 3072] x slices_S128x4096_o0_3072_S128x1024 (ix2 r j) (ix2 r (Cert.Lstm.colC j)) (fun a => match a with
    | ⟨0, _⟩ => by show r.val = 0 + r.val; omega
    | ⟨1, _⟩ => by show 3072 + j.val = 3072 + j.val; rfl)

variable (v0 v2 : Vec Ideal S128x1024 .f32) (v4 v6 : Vec Ideal S4096x1024 .bf16) (v8 : Vec Ideal S1x4096 .f32)
  (v23 : Vec Ideal S128x1024 .f32)

/-- The stacked pre-activation the body computes, at row `r` of the block and stacked column `q`. -/
theorem gate_apply (r : Fin 128) (q : Fin 4096) :
    k0_pay1 (F := Ideal) v0 v2 v4 v6 v8 (ix2 r q)
      = Cert.Lstm.gate (fun k => v0 (ix2 r k)) (fun k => v2 (ix2 r k)) (fun q k => v4 (ix2 q k)) (fun q k => v6 (ix2 q k))
          (fun q => v8 (ix2 (0 : Fin 1) q)) q := by
  unfold k0_pay1
  rw [addf_apply, addf_apply, shapeCast_self, shapeCast_self, shapeCast_self, matmul_read, matmul_read]
  -- the bias row is broadcast down the 128 rows: row `r` of the broadcast is the one row of the operand
  rw [broadcastTo_apply v8 broadcasts_S1x4096_S128x4096 (ix2 r q) (ix2 (0 : Fin 1) q) (fun a => match a with
    | ⟨0, _⟩ => by show (0 : Nat) = if (1 : Nat) = 1 then 0 else r.val; rw [if_pos rfl]
    | ⟨1, _⟩ => by show q.val = if (4096 : Nat) = 1 then 0 else q.val; rw [if_neg (by decide)])]
  -- rounding to the narrower format is the identity on the extended reals
  rfl

/-- The value stored as the new cell state, at row `r` and column `j`. -/
theorem cell_apply (r : Fin 128) (j : Fin 1024) :
    k0_pay2 (F := Ideal) v0 v2 v4 v6 v8 v23 (ix2 r j)
      = Cert.Lstm.newC (fun k => v0 (ix2 r k)) (fun k => v2 (ix2 r k)) (fun k => v23 (ix2 r k)) (fun q k => v4 (ix2 q k))
          (fun q k => v6 (ix2 q k)) (fun q => v8 (ix2 (0 : Fin 1) q)) j := by
  unfold k0_pay2
  rw [addf_apply, mulf_apply, mulf_apply, logistic_read, logistic_read, tanh_read, slice_F, slice_I, slice_C,
    gate_apply, gate_apply, gate_apply]
  rfl

/-- The value stored as the new hidden state, at row `r` and column `j`. -/
theorem hidden_apply (r : Fin 128) (j : Fin 1024) :
    k0_pay3 (F := Ideal) v0 v2 v4 v6 v8 v23 (ix2 r j)
      = Cert.Lstm.newH (fun k => v0 (ix2 r k)) (fun k => v2 (ix2 r k)) (fun k => v23 (ix2 r k)) (fun q k => v4 (ix2 q k))
          (fun q k => v6 (ix2 q k)) (fun q => v8 (ix2 (0 : Fin 1) q)) j := by
  unfold k0_pay3
  rw [mulf_apply, logistic_read, tanh_read, slice_O, gate_apply, cell_apply]
  rfl

end Cert.KernelIdeal.KerSpec

end
-- ==== Proof.SpecArr.lean ====
/-
  The LSTM cell step of `Spec.lean` laid out over whole arrays: the batch of 4096 rows by 1024 features, the two
  stacked 4096 × 1024 weight matrices and the stacked bias of 4096 entries. Entry (p, j) of a result array is the
  row-wise step on row p at column j.
-/
import proofs.«144759_j47347719471523_1_alg».proof.Proof.Spec
import Idealize.ShloMosaic.Lib.ValueIdx

noncomputable section

namespace Cert.Lstm

open Idealize.ShloMosaic Idealize.ShloMosaic.ValueIdx

/-- Activations [batch, features], and equally a stacked weight matrix [4 · hidden, features]. -/
abbrev SAct : Shape := ⟨2, ![4096, 1024]⟩
/-- The stacked bias. -/
abbrev SBias : Shape := ⟨1, ![4096]⟩

/-- The batch row of an array index. -/
def rowOf (i : SAct.Idx) : Fin 4096 := ⟨(i 0).val, (i 0).isLt⟩
/-- The column of an array index. -/
def colOf (i : SAct.Idx) : Fin 1024 := ⟨(i 1).val, (i 1).isLt⟩

/-- The new cell states of the whole batch. -/
def cellArr (x h c W U : SAct.Idx → EReal) (b : SBias.Idx → EReal) : SAct.Idx → EReal := fun i =>
  newC (fun k => x (ix2 (rowOf i) k)) (fun k => h (ix2 (rowOf i) k)) (fun k => c (ix2 (rowOf i) k))
    (fun q k => W (ix2 q k)) (fun q k => U (ix2 q k)) (fun q => b (ix1 q)) (colOf i)

/-- The new hidden states of the whole batch. -/
def hiddenArr (x h c W U : SAct.Idx → EReal) (b : SBias.Idx → EReal) : SAct.Idx → EReal := fun i =>
  newH (fun k => x (ix2 (rowOf i) k)) (fun k => h (ix2 (rowOf i) k)) (fun k => c (ix2 (rowOf i) k))
    (fun q k => W (ix2 q k)) (fun q k => U (ix2 q k)) (fun q => b (ix1 q)) (colOf i)

theorem cellArr_apply (x h c W U : SAct.Idx → EReal) (b : SBias.Idx → EReal) (p : Fin 4096) (j : Fin 1024) :
    cellArr x h c W U b (ix2 p j)
      = newC (fun k => x (ix2 p k)) (fun k => h (ix2 p k)) (fun k => c (ix2 p k))
          (fun q k => W (ix2 q k)) (fun q k => U (ix2 q k)) (fun q => b (ix1 q)) j := rfl

theorem hiddenArr_apply (x h c W U : SAct.Idx → EReal) (b : SBias.Idx → EReal) (p : Fin 4096) (j : Fin 1024) :
    hiddenArr x h c W U b (ix2 p j)
      = newH (fun k => x (ix2 p k)) (fun k => h (ix2 p k)) (fun k => c (ix2 p k))
          (fun q k => W (ix2 q k)) (fun q k => U (ix2 q k)) (fun q => b (ix1 q)) j := rfl

end Cert.Lstm

end
-- ==== Proof.KIValue.lean ====
/-
  What the idealized kernel program leaves in its two result arrays, on the extended reals: the LSTM cell step of
  `Spec.lean` applied to the launched activations and to the three stacks the host operations form.

  The call finds the stacked input weights, hidden weights and bias as the concatenations of the four gates'
  arrays (the change of float format is the identity on the extended reals; the reshape of the bias to one row
  keeps each entry at its column). Grid point `t` stages rows `128 t … 128 t + 127` of the three activation
  arrays and the stacks whole, so entry (r, j) of what the point writes back is the row-wise step on batch row
  `128 t + r` at column `j`: block `t` of one whole-array function. The 32 blocks tile the 4096 rows.
-/
import proofs.«144759_j47347719471523_1_alg».proof.Proof.FrameKI
import proofs.«144759_j47347719471523_1_alg».proof.Proof.KerSpec
import proofs.«144759_j47347719471523_1_alg».proof.Proof.SpecArr
import Idealize.ShloMosaic.Lib.Pipeline.Value
import Idealize.ShloMosaic.Lib.StableHlo.Run
import Idealize.ShloMosaic.Lib.ValueIdx

noncomputable section

namespace Cert.KernelIdeal.Val

open Cert.KernelIdeal Cert.KernelIdeal.Gen Cert.KernelIdeal.Fr Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the step is taken of -/

/-- The four gates' input weight matrices stacked along the leading axis. -/
def Wst (c : Dev nD) : S4096x1024.Idx → EReal :=
  concatenate S4096x1024 0 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S4096x1024_d0

/-- The four gates' hidden weight matrices stacked along the leading axis. -/
def Ust (c : Dev nD) : S4096x1024.Idx → EReal :=
  concatenate S4096x1024 0 [⟨S1024x1024, m ((c : Thread nD τ).loc main_arg5)⟩, ⟨S1024x1024, m ((c : Thread nD τ).loc main_arg8)⟩, ⟨S1024x1024, m ((c : Thread nD τ).loc main_arg11)⟩, ⟨S1024x1024, m ((c : Thread nD τ).loc main_arg14)⟩] concatenates_S1024x1024_S1024x1024_S1024x1024_S1024x1024_S4096x1024_d0

/-- The four gates' biases stacked. -/
def bst (c : Dev nD) : S4096.Idx → EReal :=
  concatenate S4096 0 [⟨S1024, m ((c : Thread nD τ).loc main_arg4)⟩, ⟨S1024, m ((c : Thread nD τ).loc main_arg7)⟩, ⟨S1024, m ((c : Thread nD τ).loc main_arg10)⟩, ⟨S1024, m ((c : Thread nD τ).loc main_arg13)⟩] concatenates_S1024_S1024_S1024_S1024_S4096_d0

/-- The new cell states of the whole batch, from the launched arrays. -/
def cellA (c : Dev nD) : S4096x1024.Idx → EReal :=
  Cert.Lstm.cellArr (m ((c : Thread nD τ).loc main_arg0)) (m ((c : Thread nD τ).loc main_arg1)) (m ((c : Thread nD τ).loc main_arg2)) (Wst m c) (Ust m c) (bst m c)

/-- The new hidden states of the whole batch, from the launched arrays. -/
def hiddenA (c : Dev nD) : S4096x1024.Idx → EReal :=
  Cert.Lstm.hiddenArr (m ((c : Thread nD τ).loc main_arg0)) (m ((c : Thread nD τ).loc main_arg1)) (m ((c : Thread nD τ).loc main_arg2)) (Wst m c) (Ust m c) (bst m c)

/-! ## What the call finds in the arrays the host operations wrote -/

theorem V_W (c : Dev nD) : (V m c main_v1 : S4096x1024.Idx → EReal) = Wst m c := by
  dsimp only [V, hostOps0]; after_results; rfl

theorem V_U (c : Dev nD) : (V m c main_v3 : S4096x1024.Idx → EReal) = Ust m c := by
  dsimp only [V, hostOps0]; after_results; rfl

theorem V_b (c : Dev nD) : (V m c main_v5 : S1x4096.Idx → EReal) = (shapeCast S1x4096 (bst m c) shapeCasts_S4096_S1x4096 : S1x4096.Idx → EReal) := by
  dsimp only [V, hostOps0]; after_results; rfl

/-- The one-row bias at column `q` is the stacked bias at `q`. -/
theorem V_b_apply (c : Dev nD) (q : Fin 4096) : V m c main_v5 (ix2 (0 : Fin 1) q) = bst m c (ix1 q) :=
  (congrFun (V_b m c) (ix2 (0 : Fin 1) q)).trans (shapeCast_apply (bst m c) shapeCasts_S4096_S1x4096 (ix2 (0 : Fin 1) q) (ix1 q) (by
    rw [Shape.rowMajor_val_one, Shape.rowMajor_val_two]; show q.val = 0 * 4096 + q.val; omega))

/-! ## The blocks a point stages -/

/-- The block indices of the eight windows at a grid point: the activations and the results move one block of
    rows per point, the stacks stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 32 := N_0 ▸ t.isLt

/-- Row `r` of point `t`'s blocks is batch row `128 t + r`. -/
def rowAt (t : Fin cfg0.N) (r : Fin 128) : Fin 4096 := ⟨128 * t.val + r.val, by have := t_lt t; have := r.isLt; omega⟩

abbrev xb (c : Dev nD) (t : Fin cfg0.N) : Vec Ideal S128x1024 .f32 := iblk m c 0 t
abbrev hb (c : Dev nD) (t : Fin cfg0.N) : Vec Ideal S128x1024 .f32 := iblk m c 1 t
abbrev cb (c : Dev nD) (t : Fin cfg0.N) : Vec Ideal S128x1024 .f32 := iblk m c 2 t
abbrev Wb (c : Dev nD) (t : Fin cfg0.N) : Vec Ideal S4096x1024 .bf16 := iblk m c 3 t
abbrev Ub (c : Dev nD) (t : Fin cfg0.N) : Vec Ideal S4096x1024 .bf16 := iblk m c 4 t
abbrev bb (c : Dev nD) (t : Fin cfg0.N) : Vec Ideal S1x4096 .f32 := iblk m c 5 t

theorem x_read (c : Dev nD) (t : Fin cfg0.N) (r : Fin 128) (k : Fin 1024) :
    xb m c t (ix2 r k) = m ((c : Thread nD τ).loc main_arg0) (ix2 (rowAt t r) k) := by
  show V m c main_arg0 (((cfg0.win 0).blk t).view.emb (ix2 r k)) = _
  rw [V_main_arg0]
  refine congrArg _ (funext fun a => Fin.ext ?_)
  obtain ⟨e0, e1, -⟩ := idx_facts t
  match a with
  | ⟨0, _⟩ => show win0_0.index t (0 : Fin 2) * 128 + 1 * r.val = 128 * t.val + r.val; omega
  | ⟨1, _⟩ => show win0_0.index t (1 : Fin 2) * 1024 + 1 * k.val = k.val; omega

theorem h_read (c : Dev nD) (t : Fin cfg0.N) (r : Fin 128) (k : Fin 1024) :
    hb m c t (ix2 r k) = m ((c : Thread nD τ).loc main_arg1) (ix2 (rowAt t r) k) := by
  show V m c main_arg1 (((cfg0.win 1).blk t).view.emb (ix2 r k)) = _
  rw [V_main_arg1]
  refine congrArg _ (funext fun a => Fin.ext ?_)
  obtain ⟨-, -, e0, e1, -⟩ := idx_facts t
  match a with
  | ⟨0, _⟩ => show win0_1.index t (0 : Fin 2) * 128 + 1 * r.val = 128 * t.val + r.val; omega
  | ⟨1, _⟩ => show win0_1.index t (1 : Fin 2) * 1024 + 1 * k.val = k.val; omega

theorem c_read (c : Dev nD) (t : Fin cfg0.N) (r : Fin 128) (k : Fin 1024) :
    cb m c t (ix2 r k) = m ((c : Thread nD τ).loc main_arg2) (ix2 (rowAt t r) k) := by
  show V m c main_arg2 (((cfg0.win 2).blk t).view.emb (ix2 r k)) = _
  rw [V_main_arg2]
  refine congrArg _ (funext fun a => Fin.ext ?_)
  obtain ⟨-, -, -, -, e0, e1, -⟩ := idx_facts t
  match a with
  | ⟨0, _⟩ => show win0_2.index t (0 : Fin 2) * 128 + 1 * r.val = 128 * t.val + r.val; omega
  | ⟨1, _⟩ => show win0_2.index t (1 : Fin 2) * 1024 + 1 * k.val = k.val; omega

theorem W_read (c : Dev nD) (t : Fin cfg0.N) (q : Fin 4096) (k : Fin 1024) :
    Wb m c t (ix2 q k) = Wst m c (ix2 q k) := by
  show V m c main_v1 (((cfg0.win 3).blk t).view.emb (ix2 q k)) = _
  refine (congrArg (V m c main_v1) (funext fun a => Fin.ext ?_)).trans (congrFun (V_W m c) (ix2 q k))
  obtain ⟨-, -, -, -, -, -, e0, e1, -⟩ := idx_facts t
  match a with
  | ⟨0, _⟩ => show win0_3.index t (0 : Fin 2) * 4096 + 1 * q.val = q.val; omega
  | ⟨1, _⟩ => show win0_3.index t (1 : Fin 2) * 1024 + 1 * k.val = k.val; omega

theorem U_read (c : Dev nD) (t : Fin cfg0.N) (q : Fin 4096) (k : Fin 1024) :
    Ub m c t (ix2 q k) = Ust m c (ix2 q k) := by
  show V m c main_v3 (((cfg0.win 4).blk t).view.emb (ix2 q k)) = _
  refine (congrArg (V m c main_v3) (funext fun a => Fin.ext ?_)).trans (congrFun (V_U m c) (ix2 q k))
  obtain ⟨-, -, -, -, -, -, -, -, e0, e1, -⟩ := idx_facts t
  match a with
  | ⟨0, _⟩ => show win0_4.index t (0 : Fin 2) * 4096 + 1 * q.val = q.val; omega
  | ⟨1, _⟩ => show win0_4.index t (1 : Fin 2) * 1024 + 1 * k.val = k.val; omega

theorem b_read (c : Dev nD) (t : Fin cfg0.N) (q : Fin 4096) :
    bb m c t (ix2 (0 : Fin 1) q) = bst m c (ix1 q) := by
  show V m c main_v5 (((cfg0.win 5).blk t).view.emb (ix2 (0 : Fin 1) q)) = _
  refine (congrArg (V m c main_v5) (funext fun a => Fin.ext ?_)).trans (V_b_apply m c q)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 4096 + 1 * q.val = q.val; omega

/-! ## What a point writes back is its block of the whole-array step -/

theorem hz : (![0, 0] : Fin 2 → Nat) = fun _ => 0 := funext fun a => by fin_cases a <;> rfl

/-- Entry (r, j) of point `t`'s result block sits at array index (128 t + r, j). -/
theorem emb6 (t : Fin cfg0.N) (r : Fin 128) (j : Fin 1024) :
    ((cfg0.win 6).blk t).view.emb (ix2 r j) = ix2 (rowAt t r) j := by
  funext a; apply Fin.ext
  obtain ⟨-, -, -, -, -, -, -, -, -, -, -, -, e0, e1, -⟩ := idx_facts t
  match a with
  | ⟨0, _⟩ => show win0_6.index t (0 : Fin 2) * 128 + 1 * r.val = 128 * t.val + r.val; omega
  | ⟨1, _⟩ => show win0_6.index t (1 : Fin 2) * 1024 + 1 * j.val = j.val; omega

theorem emb7 (t : Fin cfg0.N) (r : Fin 128) (j : Fin 1024) :
    ((cfg0.win 7).blk t).view.emb (ix2 r j) = ix2 (rowAt t r) j := by
  funext a; apply Fin.ext
  obtain ⟨-, -, -, -, -, -, -, -, -, -, -, -, -, -, e0, e1⟩ := idx_facts t
  match a with
  | ⟨0, _⟩ => show win0_7.index t (0 : Fin 2) * 128 + 1 * r.val = 128 * t.val + r.val; omega
  | ⟨1, _⟩ => show win0_7.index t (1 : Fin 2) * 1024 + 1 * j.val = j.val; omega

theorem flushed6_eq (c : Dev nD) (t : Fin cfg0.N) :
    (dats m 0 c).flushed 6 t = ((cfg0.win 6).blk t).view.read (Elt Ideal) (hiddenA m c) := by
  show (cfg0.win 6).cut (grid0.coords t) ((dats m 0 c).after 6 t) = _
  rw [after_6]
  unfold out6
  rw [View.canon_unit_zero hz]
  simp only [View.ld_unit_zero (S := S128x1024) hz, View.ld_unit_zero (S := S4096x1024) hz, View.ld_unit_zero (S := S1x4096) hz]
  funext y
  obtain ⟨r, j, rfl⟩ : ∃ (r : Fin 128) (j : Fin 1024), y = ix2 r j := ⟨y 0, y 1, eq_ix2 y⟩
  refine (KerSpec.hidden_apply (xb m c t) (hb m c t) (Wb m c t) (Ub m c t) (bb m c t) (cb m c t) r j).trans ?_
  show _ = hiddenA m c (((cfg0.win 6).blk t).view.emb (ix2 r j))
  rw [emb6, hiddenA, Cert.Lstm.hiddenArr_apply]
  simp only [x_read, h_read, c_read, W_read, U_read, b_read]

theorem flushed7_eq (c : Dev nD) (t : Fin cfg0.N) :
    (dats m 0 c).flushed 7 t = ((cfg0.win 7).blk t).view.read (Elt Ideal) (cellA m c) := by
  show (cfg0.win 7).cut (grid0.coords t) ((dats m 0 c).after 7 t) = _
  rw [after_7]
  unfold out7
  rw [View.canon_unit_zero hz]
  simp only [View.ld_unit_zero (S := S128x1024) hz, View.ld_unit_zero (S := S4096x1024) hz, View.ld_unit_zero (S := S1x4096) hz]
  funext y
  obtain ⟨r, j, rfl⟩ : ∃ (r : Fin 128) (j : Fin 1024), y = ix2 r j := ⟨y 0, y 1, eq_ix2 y⟩
  refine (KerSpec.cell_apply (xb m c t) (hb m c t) (Wb m c t) (Ub m c t) (bb m c t) (cb m c t) r j).trans ?_
  show _ = cellA m c (((cfg0.win 7).blk t).view.emb (ix2 r j))
  rw [emb7, cellA, Cert.Lstm.cellArr_apply]
  simp only [x_read, h_read, c_read, W_read, U_read, b_read]

/-! ## The blocks tile the arrays -/

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v6_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v6_1).slice (win0_7.rect t)).set ↔ _
  rw [View.set_slice_whole, Rect.mem_set_unit]
  exact Iff.rfl

/-- The point whose block holds batch row `p`. -/
def ptOf (i : S4096x1024.Idx) : Fin cfg0.N := ⟨(i 0).val / 128, by
  have h : (i 0).val < 4096 := (i 0).isLt
  show (i 0).val / 128 < grid0.N
  rw [N_0]; omega⟩

theorem cover6 (i : S4096x1024.Idx) : ∃ t : Fin cfg0.N, (cfg0.win 6).flush t = true ∧ i ∈ ((cfg0.win 6).blk t).view.set := by
  refine ⟨ptOf i, flush0_6 _, ?_⟩
  rw [mem_blk6]
  obtain ⟨-, -, -, -, -, -, -, -, -, -, -, -, e0, e1, -⟩ := idx_facts (ptOf i)
  have h0 : (i 0).val < 4096 := (i 0).isLt
  have h1 : (i 1).val < 1024 := (i 1).isLt
  have hp : (ptOf i).val = (i 0).val / 128 := rfl
  intro a
  match a with
  | ⟨0, _⟩ => show win0_6.index (ptOf i) (0 : Fin 2) * 128 ≤ (i 0).val ∧ (i 0).val < win0_6.index (ptOf i) (0 : Fin 2) * 128 + 128; omega
  | ⟨1, _⟩ => show win0_6.index (ptOf i) (1 : Fin 2) * 1024 ≤ (i 1).val ∧ (i 1).val < win0_6.index (ptOf i) (1 : Fin 2) * 1024 + 1024; omega

theorem cover7 (i : S4096x1024.Idx) : ∃ t : Fin cfg0.N, (cfg0.win 7).flush t = true ∧ i ∈ ((cfg0.win 7).blk t).view.set := by
  refine ⟨ptOf i, flush0_7 _, ?_⟩
  rw [mem_blk7]
  obtain ⟨-, -, -, -, -, -, -, -, -, -, -, -, -, -, e0, e1⟩ := idx_facts (ptOf i)
  have h0 : (i 0).val < 4096 := (i 0).isLt
  have h1 : (i 1).val < 1024 := (i 1).isLt
  have hp : (ptOf i).val = (i 0).val / 128 := rfl
  intro a
  match a with
  | ⟨0, _⟩ => show win0_7.index (ptOf i) (0 : Fin 2) * 128 ≤ (i 0).val ∧ (i 0).val < win0_7.index (ptOf i) (0 : Fin 2) * 128 + 128; omega
  | ⟨1, _⟩ => show win0_7.index (ptOf i) (1 : Fin 2) * 1024 ≤ (i 1).val ∧ (i 1).val < win0_7.index (ptOf i) (1 : Fin 2) * 1024 + 1024; omega

/-! ## The result arrays after the run -/

theorem final6 (c : Dev nD) : (dats m 0 c).arrAt 6 cfg0.N = hiddenA m c :=
  (dats m 0 c).arrAt_eq_of_cover 6 (hiddenA m c) (fun t _ => flushed6_eq m c t) cover6

theorem final7 (c : Dev nD) : (dats m 0 c).arrAt 7 cfg0.N = cellA m c :=
  (dats m 0 c).arrAt_eq_of_cover 7 (cellA m c) (fun t _ => flushed7_eq m c t) cover7

/-- The idealized kernel program's run: it ends with the first result at the new hidden states and the second at
    the new cell states of the launched arrays, and with the fifteen arguments as launched (a staged activation
    array is never written back; the other arguments are buffers no window stages). -/
theorem run : θ_run defs (onTc (τ := τ) (main (F := Ideal))) ⟨m, fun _ => 0, ρ⟩ fun r => ∀ c : Dev nD,
      r.2.mem ((c.tc : Thread nD τ).loc main_v6_0) = hiddenA m c
      ∧ r.2.mem ((c.tc : Thread nD τ).loc main_v6_1) = cellA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Val

end
-- ==== Proof.RefSpec.lean ====
/-
  The reference program's two results, read at one entry, are the LSTM cell step of `Spec.lean` on that batch
  row: the stacked weights and bias are the three concatenations the program forms first (kept whole here), the
  two matrix products contract the feature axis against the transposed stacks, and each sigmoid is spelt
  1 / (1 + e⁻ˣ), which is the logistic function on the extended reals.
-/
import proofs.«144759_j47347719471523_1_alg».proof.Proof.Gen.ReferenceIdeal.Read
import proofs.«144759_j47347719471523_1_alg».proof.Proof.Spec
import Idealize.ShloMosaic.Lib.ValueIdx
import Idealize.ShloMosaic.Lib.IdealHost

noncomputable section

namespace Cert.ReferenceIdeal.RefSpec

open Cert.ReferenceIdeal Cert.ReferenceIdeal.Gen Cert.ReferenceIdeal.Read Idealize.ShloMosaic Idealize.ShloMosaic.ValueIdx

variable (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal))

/-- One over one plus e⁻ᵍ, with the two ones given as the word of the float 1.0, is the logistic function. -/
private theorem sigmoid_eq (g : EReal) :
    Ideal.div (Ideal.ofBits .f32 0x3F800000#32) (Ideal.ofBits .f32 0x3F800000#32 + Ideal.exp (-g)) = Ideal.logistic g := by
  rw [Ideal.ofBits_one_f32]
  rfl

/-- The stacked pre-activation (the program's `%10`), at batch row `p` and stacked column `q`. -/
theorem gate_apply (p : Fin 4096) (q : Fin 4096) :
    val_main_v10 (F := Ideal) x0 x1 x3 x4 x5 x6 x7 x8 x9 x10 x11 x12 x13 x14 (ix2 p q)
      = Cert.Lstm.gate (fun k => x0 (ix2 p k)) (fun k => x1 (ix2 p k)) (fun q k => val_main_v0 (F := Ideal) x3 x6 x9 x12 (ix2 q k)) (fun q k => val_main_v1 (F := Ideal) x5 x8 x11 x14 (ix2 q k))
          (fun q => val_main_v2 (F := Ideal) x4 x7 x10 x13 (ix1 q)) q := by
  -- Entry (p, q) of each product reads the left operand at (p, k) and, through the transpose, the stack at (q, k);
  -- the bias, broadcast along the rows, is read at q.
  have e1 : ∀ k : Fin 1024, lidx_main_v4 (ix2 p q) k = ix2 p k := fun k =>
    funext fun a => Fin.ext (by match a with | ⟨0, _⟩ => rfl | ⟨1, _⟩ => rfl)
  have e2 : ∀ k : Fin 1024, idx_main_v3 (ridx_main_v4 (ix2 p q) k) = ix2 q k := fun k =>
    funext fun a => Fin.ext (by match a with | ⟨0, _⟩ => rfl | ⟨1, _⟩ => rfl)
  have e3 : ∀ k : Fin 1024, lidx_main_v6 (ix2 p q) k = ix2 p k := fun k =>
    funext fun a => Fin.ext (by match a with | ⟨0, _⟩ => rfl | ⟨1, _⟩ => rfl)
  have e4 : ∀ k : Fin 1024, idx_main_v5 (ridx_main_v6 (ix2 p q) k) = ix2 q k := fun k =>
    funext fun a => Fin.ext (by match a with | ⟨0, _⟩ => rfl | ⟨1, _⟩ => rfl)
  have e5 : idx_main_v8 (idx_main_v9 (ix2 p q)) = ix1 q :=
    funext fun a => Fin.ext (by match a with | ⟨0, _⟩ => rfl)
  rw [val_main_v10_apply, val_main_v7_apply, val_main_v4_apply, val_main_v6_apply, val_main_v9_apply,
    val_main_v8_apply, e5]
  simp only [val_main_v3_apply, val_main_v5_apply, e1, e2, e3, e4, Ideal.addf_def]
  rfl

/-- The new cell state (the program's second result), at batch row `p` and column `j`. -/
theorem cell_apply (p : Fin 4096) (j : Fin 1024) :
    val_main_v36 (F := Ideal) x0 x1 x2 x3 x4 x5 x6 x7 x8 x9 x10 x11 x12 x13 x14 (ix2 p j)
      = Cert.Lstm.newC (fun k => x0 (ix2 p k)) (fun k => x1 (ix2 p k)) (fun k => x2 (ix2 p k)) (fun q k => val_main_v0 (F := Ideal) x3 x6 x9 x12 (ix2 q k)) (fun q k => val_main_v1 (F := Ideal) x5 x8 x11 x14 (ix2 q k))
          (fun q => val_main_v2 (F := Ideal) x4 x7 x10 x13 (ix1 q)) j := by
  -- The four column slices of width 1024 start at 0, 1024, 2048 and 3072: the input, output, forget and candidate blocks.
  have f11 : idx_main_v11 (ix2 p j) = ix2 p (Cert.Lstm.colI j) :=
    funext fun a => Fin.ext (by match a with | ⟨0, _⟩ => rfl | ⟨1, _⟩ => rfl)
  have f13 : idx_main_v13 (ix2 p j) = ix2 p (Cert.Lstm.colF j) :=
    funext fun a => Fin.ext (by match a with | ⟨0, _⟩ => rfl | ⟨1, _⟩ => rfl)
  have f14 : idx_main_v14 (ix2 p j) = ix2 p (Cert.Lstm.colC j) :=
    funext fun a => Fin.ext (by match a with | ⟨0, _⟩ => rfl | ⟨1, _⟩ => rfl)
  simp only [val_main_v36_apply, val_main_v34_apply, val_main_v35_apply, val_main_v32_apply, val_main_v31_apply,
    val_main_cst_4_apply, val_main_v30_apply, val_main_v29_apply, val_main_cst_3_apply, val_main_v28_apply,
    val_main_v27_apply, val_main_v13_apply, val_main_v20_apply, val_main_v19_apply, val_main_cst_0_apply,
    val_main_v18_apply, val_main_v17_apply, val_main_cst_apply, val_main_v16_apply, val_main_v15_apply,
    val_main_v11_apply, val_main_v33_apply, val_main_v14_apply, f11, f13, f14, gate_apply,
    Ideal.addf_def, Ideal.mulf_def, Ideal.hostDivf_def, Ideal.hostNegf_def, Ideal.negf_def,
    Ideal.hostUnary_exp_def, Ideal.hostUnary_tanh_def, Ideal.ofBits_def, sigmoid_eq]
  rfl

/-- The new hidden state (the program's first result), at batch row `p` and column `j`. -/
theorem hidden_apply (p : Fin 4096) (j : Fin 1024) :
    val_main_v38 (F := Ideal) x0 x1 x2 x3 x4 x5 x6 x7 x8 x9 x10 x11 x12 x13 x14 (ix2 p j)
      = Cert.Lstm.newH (fun k => x0 (ix2 p k)) (fun k => x1 (ix2 p k)) (fun k => x2 (ix2 p k)) (fun q k => val_main_v0 (F := Ideal) x3 x6 x9 x12 (ix2 q k)) (fun q k => val_main_v1 (F := Ideal) x5 x8 x11 x14 (ix2 q k))
          (fun q => val_main_v2 (F := Ideal) x4 x7 x10 x13 (ix1 q)) j := by
  -- The output gate's block is the slice of columns 1024 to 2047.
  have f12 : idx_main_v12 (ix2 p j) = ix2 p (Cert.Lstm.colO j) :=
    funext fun a => Fin.ext (by match a with | ⟨0, _⟩ => rfl | ⟨1, _⟩ => rfl)
  simp only [val_main_v38_apply, val_main_v37_apply, cell_apply, val_main_v26_apply, val_main_v25_apply,
    val_main_cst_2_apply, val_main_v24_apply, val_main_v23_apply, val_main_cst_1_apply, val_main_v22_apply,
    val_main_v21_apply, val_main_v12_apply, f12, gate_apply,
    Ideal.addf_def, Ideal.mulf_def, Ideal.hostDivf_def, Ideal.hostNegf_def, Ideal.negf_def,
    Ideal.hostUnary_exp_def, Ideal.hostUnary_tanh_def, Ideal.ofBits_def, sigmoid_eq]
  rfl

end Cert.ReferenceIdeal.RefSpec

end
-- ==== Proof.RefArr.lean ====
/-
  The reference program's two results as whole arrays: the LSTM cell step of `SpecArr.lean` on the fifteen
  arguments, the stacked weights and bias being the program's own three concatenations.
-/
import proofs.«144759_j47347719471523_1_alg».proof.Proof.RefSpec
import proofs.«144759_j47347719471523_1_alg».proof.Proof.SpecArr

noncomputable section

namespace Cert.ReferenceIdeal.RefArr

open Cert.ReferenceIdeal Cert.ReferenceIdeal.Gen Cert.ReferenceIdeal.Read Idealize.ShloMosaic Idealize.ShloMosaic.ValueIdx

variable (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal))

/-- The first result is the new hidden states of the whole batch. -/
theorem hidden_eq :
    val_main_v38 (F := Ideal) x0 x1 x2 x3 x4 x5 x6 x7 x8 x9 x10 x11 x12 x13 x14
      = Cert.Lstm.hiddenArr x0 x1 x2 (val_main_v0 (F := Ideal) x3 x6 x9 x12) (val_main_v1 (F := Ideal) x5 x8 x11 x14) (val_main_v2 (F := Ideal) x4 x7 x10 x13) := by
  funext i
  obtain ⟨p, j, rfl⟩ : ∃ (p : Fin 4096) (j : Fin 1024), i = ix2 p j := ⟨i 0, i 1, eq_ix2 i⟩
  rw [RefSpec.hidden_apply, Cert.Lstm.hiddenArr_apply]

/-- The second result is the new cell states of the whole batch. -/
theorem cell_eq :
    val_main_v36 (F := Ideal) x0 x1 x2 x3 x4 x5 x6 x7 x8 x9 x10 x11 x12 x13 x14
      = Cert.Lstm.cellArr x0 x1 x2 (val_main_v0 (F := Ideal) x3 x6 x9 x12) (val_main_v1 (F := Ideal) x5 x8 x11 x14) (val_main_v2 (F := Ideal) x4 x7 x10 x13) := by
  funext i
  obtain ⟨p, j, rfl⟩ : ∃ (p : Fin 4096) (j : Fin 1024), i = ix2 p j := ⟨i 0, i 1, eq_ix2 i⟩
  rw [RefSpec.cell_apply, Cert.Lstm.cellArr_apply]

end Cert.ReferenceIdeal.RefArr

end
-- ==== Proof.lean ====
/-
  The certificate of one LSTM cell step: a pipelined kernel over 32 blocks of 128 batch rows against the plain
  array program.

  Both programs take the batch's input features, previous hidden and cell states (4096 rows of 1024) and, for
  each of the four gates (input, output, forget, candidate), an input weight matrix, a hidden weight matrix and a
  bias. Both stack the four gates' arrays, form the pre-activation
      (x · Wᵀ + h · Uᵀ) + b        (4096 stacked columns),
  cut it into the four gates' column blocks, and return
      new cell state   = σ(forget) · old cell state + σ(input) · tanh(candidate),
      new hidden state = σ(output) · tanh(new cell state).
  They differ only in spelling: the kernel rounds its matrix operands to a narrower float format (the identity on
  the extended reals), contracts the feature axis of the stacks directly where the reference transposes them
  first (the same sum over the 1024 features), adds the bias as one broadcast row, applies the logistic function
  where the reference writes 1 / (1 + e⁻ˣ) (the same function on the extended reals, at the infinities too),
  and works a block of rows at a time. No algebraic law beyond these identifications is needed, so the
  finiteness of the inputs is never used.

  `Spec.lean` / `SpecArr.lean` state the step once; `KerSpec.lean` and `KIValue.lean` show the kernel program
  ends at it, `RefSpec.lean` and `RefArr.lean` that the reference does; `FrameKI.lean` and `FrameK.lean` are the
  two kernel programs' frames, and the reference's frame is its run with the results dropped. The idealized kernel
  is the word-level kernel's own text read on the extended reals, so nothing is owed for that step.
-/
import proofs.«144759_j47347719471523_1_alg».proof.Defs
import proofs.«144759_j47347719471523_1_alg».proof.Proof.Gen.Kernel
import proofs.«144759_j47347719471523_1_alg».proof.Proof.Gen.KernelIdeal
import proofs.«144759_j47347719471523_1_alg».proof.Proof.Gen.ReferenceIdeal
import proofs.«144759_j47347719471523_1_alg».proof.Proof.Gen.Pre_finite_inputs
import proofs.«144759_j47347719471523_1_alg».proof.Proof.Gen.ReferenceIdeal.Run
import proofs.«144759_j47347719471523_1_alg».proof.Proof.Gen.ReferenceIdeal.Read
import proofs.«144759_j47347719471523_1_alg».proof.Proof.FrameK
import proofs.«144759_j47347719471523_1_alg».proof.Proof.FrameKI
import proofs.«144759_j47347719471523_1_alg».proof.Proof.KIValue
import proofs.«144759_j47347719471523_1_alg».proof.Proof.RefArr

noncomputable section

namespace Cert.Proof

open Idealize.ShloMosaic Idealize.SL.Sem

/-- The word-level kernel program runs to its end and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's stacks of the launched arrays are the kernel program's: the same concatenations. -/
theorem ref_hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v38 m' c = Cert.KernelIdeal.Val.hiddenA m c
    ∧ Cert.ReferenceIdeal.Value.res_main_v36 m' c = Cert.KernelIdeal.Val.cellA m c := by
  obtain ⟨a0, a1, a2, a3, a4, a5, a6, a7, a8, a9, a10, a11, a12, a13, a14⟩ := hagree
  constructor
  · rw [Cert.ReferenceIdeal.Read.val_main_v38_eq, Cert.ReferenceIdeal.RefArr.hidden_eq, a0, a1, a2, a3, a4, a5, a6, a7, a8, a9, a10, a11, a12, a13, a14]
    rfl
  · rw [Cert.ReferenceIdeal.Read.val_main_v36_eq, Cert.ReferenceIdeal.RefArr.cell_eq, a0, a1, a2, a3, a4, a5, a6, a7, a8, a9, a10, a11, a12, a13, a14]
    rfl

/-- From memories agreeing on the arguments both programs end with the new hidden states and the new cell states
    of the launched arrays. -/
theorem algebraic : Cert.algebraic_KernelIdeal_ReferenceIdeal := by
  intro m ρ m' ρ' _ hagree
  refine ⟨fun c => Cert.KernelIdeal.Val.hiddenA m c, fun c => Cert.KernelIdeal.Val.cellA m c,
    Cert.KernelIdeal.Val.run m ρ, ?_⟩
  exact (θ_run Cert.ReferenceIdeal.defs _ _).mono
    (fun _ h c => ⟨(h c).1.trans (ref_hidden_eq m m' c (hagree c)).1, (h c).2.1.trans (ref_hidden_eq m m' c (hagree c)).2, (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
